-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1200000x64 .f32) (main_arg2 : IVec S1200000 32) (main_arg3 : IVec S1200000 32) (main_arg4 : FVec F S128x64 .f32) (main_arg5 : FVec F S64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S_ : Shape := ⟨0, ![]⟩
abbrev S1200000x1 : Shape := ⟨2, ![1200000, 1]⟩
abbrev S64x64 : Shape := ⟨2, ![64, 64]⟩
abbrev S16000x64 : Shape := ⟨2, ![16000, 64]⟩
abbrev S1x64 : Shape := ⟨2, ![1, 64]⟩
abbrev S100000x1 : Shape := ⟨2, ![100000, 1]⟩
abbrev S10000x64 : Shape := ⟨2, ![10000, 64]⟩

abbrev nBuf : Space → Nat
  | .hbm => 46
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S1200000, .i32⟩
  | .hbm, ⟨3, _⟩ => ⟨S1200000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S64x64, .f32⟩
  | .hbm, ⟨18, _⟩ => ⟨S64x64, .f32⟩
  | .hbm, ⟨19, _⟩ => ⟨S1200000x64, .f32⟩
  | .hbm, ⟨20, _⟩ => ⟨S_, .f32⟩
  | .hbm, ⟨21, _⟩ => ⟨S100000x64, .f32⟩
  | .hbm, ⟨22, _⟩ => ⟨S1200000x1, .i32⟩
  | .hbm, ⟨23, _⟩ => ⟨S100000x64, .f32⟩
  | .hbm, ⟨24, _⟩ => ⟨S_, .f32⟩
  | .hbm, ⟨25, _⟩ => ⟨S1200000x1, .f32⟩
  | .hbm, ⟨26, _⟩ => ⟨S_, .f32⟩
  | .hbm, ⟨27, _⟩ => ⟨S100000x1, .f32⟩
  | .hbm, ⟨28, _⟩ => ⟨S1200000x1, .i32⟩
  | .hbm, ⟨29, _⟩ => ⟨S100000x1, .f32⟩
  | .hbm, ⟨30, _⟩ => ⟨S_, .f32⟩
  | .hbm, ⟨31, _⟩ => ⟨S100000x1, .f32⟩
  | .hbm, ⟨32, _⟩ => ⟨S100000x1, .i1⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S_, .f32⟩
  | .hbm, ⟨40, _⟩ => ⟨S100000x64, .i1⟩
  | .hbm, ⟨41, _⟩ => ⟨S100000x64, .f32⟩
  | .hbm, ⟨42, _⟩ => ⟨S100000x64, .f32⟩
  | .hbm, ⟨43, _⟩ => ⟨S64x64, .f32⟩
  | .hbm, ⟨44, _⟩ => ⟨S64x64, .f32⟩
  | .hbm, ⟨45, _⟩ => ⟨S100000x64, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S16000x64, .f32⟩
  | .local _ .vmem, ⟨8, _⟩ => ⟨S16000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S128x64_S64x64_0_0 : S128x64.Slices ![0, 0] S64x64
  slices_S128x64_S64x64_64_0 : S128x64.Slices ![64, 0] S64x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S100000x64_S1200000x1_S1200000x64_1_0_n_n_0_1_164_wf : GatherDims.WF S100000x64 S1200000x1 S1200000x64 [1] [0] [] [0] [] 1 ![1, 64]
  dot_S16000x64_S64x64_S16000x64_1_0_0_1_n_n_wf : DotDims.WF S16000x64 S64x64 S16000x64 [1] [0] [0] [1] [] []
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1200000x64.size a
  hwx0_0 : ∀ i : grid0.Coords, EltTy.bits .f32 = 32 ∨ (Rect.block (s := S1200000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1200000x64.size a
  hwx0_1 : ∀ i : grid0.Coords, EltTy.bits .f32 = 32 ∨ (Rect.block (s := S1200000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x64.size a ≤ S1200000x64.size a
  hwx0_5 : ∀ i : grid0.Coords, EltTy.bits .f32 = 32 ∨ (Rect.block (s := S1200000x64) S16000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S16000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S_ : Shape := ⟨0, ![]⟩
abbrev S1200000x1 : Shape := ⟨2, ![1200000, 1]⟩
abbrev S1200000x128 : Shape := ⟨2, ![1200000, 128]⟩
abbrev S1x64 : Shape := ⟨2, ![1, 64]⟩
abbrev S100000x1 : Shape := ⟨2, ![100000, 1]⟩
abbrev S100000x128 : Shape := ⟨2, ![100000, 128]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S1200000, .i32⟩
  | .hbm, ⟨3, _⟩ => ⟨S1200000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x128, .f32⟩
  | .hbm, ⟨18, _⟩ => ⟨S1200000x64, .f32⟩
  | .hbm, ⟨19, _⟩ => ⟨S1x64, .f32⟩
  | .hbm, ⟨20, _⟩ => ⟨S1200000x64, .f32⟩
  | .hbm, ⟨21, _⟩ => ⟨S1200000x64, .f32⟩
  | .hbm, ⟨22, _⟩ => ⟨S_, .f32⟩
  | .hbm, ⟨23, _⟩ => ⟨S100000x64, .f32⟩
  | .hbm, ⟨24, _⟩ => ⟨S1200000x1, .i32⟩
  | .hbm, ⟨25, _⟩ => ⟨S100000x64, .f32⟩
  | .hbm, ⟨26, _⟩ => ⟨S_, .f32⟩
  | .hbm, ⟨27, _⟩ => ⟨S1200000x1, .f32⟩
  | .hbm, ⟨28, _⟩ => ⟨S_, .f32⟩
  | .hbm, ⟨29, _⟩ => ⟨S100000x1, .f32⟩
  | .hbm, ⟨30, _⟩ => ⟨S1200000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .i1⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S_, .f32⟩
  | .hbm, ⟨42, _⟩ => ⟨S100000x64, .i1⟩
  | .hbm, ⟨43, _⟩ => ⟨S100000x64, .f32⟩
  | .hbm, ⟨44, _⟩ => ⟨S100000x64, .f32⟩
  | .hbm, ⟨45, _⟩ => ⟨S100000x128, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  dot_S1200000x128_S128x64_S1200000x64_1_0_0_1_n_n_wf : DotDims.WF S1200000x128 S128x64 S1200000x64 [1] [0] [0] [1] [] []
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x128_S128x64_S100000x64_1_0_0_1_n_n_wf : DotDims.WF S100000x128 S128x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Mid.lean ====
/-
  The host stretches the two programs share, each carried as ONE function.

  Both programs gather the source node's feature row for every edge (`x[src]`: a negative index is first wrapped by adding
  the number of nodes, then the row gather), and both turn the per-edge messages into a per-node mean: the messages are
  scatter-added by destination node, so is a column of ones (the in-degree), and each node's sum is divided by
  max(degree, 1), with zero put where the degree is not positive. The two printed texts spell these stretches with the
  same operations on the same shapes; only the names of the dimension records and of the shape facts differ, and those
  are equal records and proofs of the same propositions. So each stretch is stated once per program and the two are
  equal by unfolding the names, at any float instance; the certificate never opens a gather or a scatter.
-/
import proofs.«170268_j6528350290008_1_alg».proof.Proof.Gen.KernelIdeal
import proofs.«170268_j6528350290008_1_alg».proof.Proof.Gen.ReferenceIdeal

noncomputable section

namespace Cert.Mid

open Idealize.ShloMosaic

variable {F : FTy → Type} [FloatOps F]

/-! ## As the kernel's program spells them -/

section K
open Cert.KernelIdeal Cert.KernelIdeal.Gen

/-- `x[src]`: every edge's source-node feature row. -/
def gatherK (x : FVec F S100000x64 .f32) (src : IVec S1200000 32) : FVec F S1200000x64 .f32 :=
  Host.gather gather_S100000x64_S1200000x1_S1200000x64_1_0_n_n_0_1_164 x
    (broadcastInDim S1200000x1 ![0] bcast_S1200000_S1200000x1_0
      (select (cmpi .slt src (broadcastInDim S1200000 ![] bcast_S_S1200000 (constantI S_ 32 0#32)))
        (addi src (broadcastInDim S1200000 ![] bcast_S_S1200000 (constantI S_ 32 100000#32))) src))

/-- The in-degree of every node, as a column. -/
def degK (dst : IVec S1200000 32) : FVec F S100000x1 .f32 :=
  Host.scatterAdd scatter_S100000x1_S1200000x1_S1200000x1_1_0_0_1
    (broadcastInDim S100000x1 ![] bcast_S_S100000x1 (constant S_ .f32 0x00000000#32))
    (broadcastInDim S1200000x1 ![0] bcast_S1200000_S1200000x1_0 dst)
    (broadcastInDim S1200000x1 ![] bcast_S_S1200000x1 (constant S_ .f32 0x3F800000#32))

/-- The mean of every node's incoming messages, zero for a node with none. -/
def meanK (msg : FVec F S1200000x64 .f32) (dst : IVec S1200000 32) : FVec F S100000x64 .f32 :=
  select
    (broadcastInDim S100000x64 ![0, 1] bcast_S100000x1_S100000x64_0_1
      (cmpf (F := F) .ogt (degK dst) (broadcastInDim S100000x1 ![] bcast_S_S100000x1 (constant S_ .f32 0x00000000#32))))
    (Host.divf
      (Host.scatterAdd scatter_S100000x64_S1200000x1_S1200000x64_1_0_0_1
        (broadcastInDim S100000x64 ![] bcast_S_S100000x64 (constant S_ .f32 0x00000000#32))
        (broadcastInDim S1200000x1 ![0] bcast_S1200000_S1200000x1_0 dst) msg)
      (broadcastInDim S100000x64 ![0, 1] bcast_S100000x1_S100000x64_0_1
        (maximumf (degK dst) (broadcastInDim S100000x1 ![] bcast_S_S100000x1 (constant S_ .f32 0x3F800000#32)))))
    (broadcastInDim S100000x64 ![] bcast_S_S100000x64 (id (constant S_ .f32 0x00000000#32)))

end K

/-! ## As the reference spells them -/

section R
open Cert.ReferenceIdeal Cert.ReferenceIdeal.Gen

/-- `x[src]`: every edge's source-node feature row. -/
def gatherR (x : FVec F S100000x64 .f32) (src : IVec S1200000 32) : FVec F S1200000x64 .f32 :=
  Host.gather gather_S100000x64_S1200000x1_S1200000x64_1_0_n_n_0_1_164 x
    (broadcastInDim S1200000x1 ![0] bcast_S1200000_S1200000x1_0
      (select (cmpi .slt src (broadcastInDim S1200000 ![] bcast_S_S1200000 (constantI S_ 32 0#32)))
        (addi src (broadcastInDim S1200000 ![] bcast_S_S1200000 (constantI S_ 32 100000#32))) src))

/-- The in-degree of every node, as a column. -/
def degR (dst : IVec S1200000 32) : FVec F S100000x1 .f32 :=
  Host.scatterAdd scatter_S100000x1_S1200000x1_S1200000x1_1_0_0_1
    (broadcastInDim S100000x1 ![] bcast_S_S100000x1 (constant S_ .f32 0x00000000#32))
    (broadcastInDim S1200000x1 ![0] bcast_S1200000_S1200000x1_0 dst)
    (broadcastInDim S1200000x1 ![] bcast_S_S1200000x1 (constant S_ .f32 0x3F800000#32))

/-- The mean of every node's incoming messages, zero for a node with none. -/
def meanR (msg : FVec F S1200000x64 .f32) (dst : IVec S1200000 32) : FVec F S100000x64 .f32 :=
  select
    (broadcastInDim S100000x64 ![0, 1] bcast_S100000x1_S100000x64_0_1
      (cmpf (F := F) .ogt (degR dst) (broadcastInDim S100000x1 ![] bcast_S_S100000x1 (constant S_ .f32 0x00000000#32))))
    (Host.divf
      (Host.scatterAdd scatter_S100000x64_S1200000x1_S1200000x64_1_0_0_1
        (broadcastInDim S100000x64 ![] bcast_S_S100000x64 (constant S_ .f32 0x00000000#32))
        (broadcastInDim S1200000x1 ![0] bcast_S1200000_S1200000x1_0 dst) msg)
      (broadcastInDim S100000x64 ![0, 1] bcast_S100000x1_S100000x64_0_1
        (maximumf (degR dst) (broadcastInDim S100000x1 ![] bcast_S_S100000x1 (constant S_ .f32 0x3F800000#32)))))
    (broadcastInDim S100000x64 ![] bcast_S_S100000x64 (id (constant S_ .f32 0x00000000#32)))

end R

/-! ## The two spellings are one function -/

theorem gather_rec_eq :
    Cert.KernelIdeal.gather_S100000x64_S1200000x1_S1200000x64_1_0_n_n_0_1_164
      = Cert.ReferenceIdeal.gather_S100000x64_S1200000x1_S1200000x64_1_0_n_n_0_1_164 := rfl
theorem scatter64_rec_eq :
    Cert.KernelIdeal.scatter_S100000x64_S1200000x1_S1200000x64_1_0_0_1
      = Cert.ReferenceIdeal.scatter_S100000x64_S1200000x1_S1200000x64_1_0_0_1 := rfl
theorem scatter1_rec_eq :
    Cert.KernelIdeal.scatter_S100000x1_S1200000x1_S1200000x1_1_0_0_1
      = Cert.ReferenceIdeal.scatter_S100000x1_S1200000x1_S1200000x1_1_0_0_1 := rfl

theorem gather_eq (x : FVec F Cert.KernelIdeal.S100000x64 .f32) (src : IVec Cert.KernelIdeal.S1200000 32) :
    gatherK x src = gatherR x src := by
  unfold gatherK gatherR
  rw [gather_rec_eq]

theorem deg_eq (dst : IVec Cert.KernelIdeal.S1200000 32) : degK (F := F) dst = degR dst := by
  unfold degK degR
  rw [scatter1_rec_eq]

theorem mean_eq (msg : FVec F Cert.KernelIdeal.S1200000x64 .f32) (dst : IVec Cert.KernelIdeal.S1200000 32) :
    meanK msg dst = meanR msg dst := by
  unfold meanK meanR
  rw [scatter64_rec_eq, deg_eq]

end Cert.Mid

end
-- ==== Proof.Spec.lean ====
/-
  A two-input linear layer, row by row, on the extended reals.

  A GraphSAGE layer applies twice the map
      (x, y) ↦ x · Wx + y · Wy + b
  to a pair of 64-wide rows: once per edge (x the source node's features, y the edge's features) and once per node
  (x the node's features, y the mean of its incoming messages; followed by max(·, 0)). One text writes it as two
  64-term contractions added up, the other as ONE 128-term contraction of the concatenated row [x | y] against the
  stacked weights [Wx ; Wy]. They are the same extended real: a finite sum over Fin (64 + 64) splits into the sum over
  its first 64 and its last 64 indices, which uses only that addition is commutative and associative, so no finiteness
  of the entries is needed.
-/
import Idealize.ShloMosaic.PureOps.Ideal
import Idealize.ShloMosaic.Lib.ValueIdx
import Mathlib.Algebra.BigOperators.Fin

noncomputable section

open scoped BigOperators

namespace Cert.Sage

open Idealize.ShloMosaic Idealize.ShloMosaic.ValueIdx

/-- One output entry of the layer: column `q` of `x · Wx + y · Wy + b` for 64-wide rows `x`, `y`. -/
def lin2 (x y : Fin 64 → EReal) (wx wy : Fin 64 → Fin 64 → EReal) (b : Fin 64 → EReal) (q : Fin 64) : EReal :=
  (∑ k : Fin 64, x k * wx k q) + (∑ k : Fin 64, y k * wy k q) + b q

/-- Entry `k` of the concatenated row `[x | y]`. -/
def catRow (x y : Fin 64 → EReal) (k : Fin 128) : EReal :=
  if h : k.val < 64 then x ⟨k.val, h⟩ else y ⟨k.val - 64, by have := k.isLt; omega⟩

/-- Rows 0–63 of a 128-row weight matrix. -/
def topHalf (w : Fin 128 → Fin 64 → EReal) : Fin 64 → Fin 64 → EReal := fun k q => w ⟨k.val, by have := k.isLt; omega⟩ q
/-- Rows 64–127 of a 128-row weight matrix. -/
def botHalf (w : Fin 128 → Fin 64 → EReal) : Fin 64 → Fin 64 → EReal := fun k q => w ⟨64 + k.val, by have := k.isLt; omega⟩ q

/-- THE LAW: one 128-term contraction of `[x | y]` against the stacked weights is the two 64-term contractions added. -/
theorem sum_cat (x y : Fin 64 → EReal) (w : Fin 128 → Fin 64 → EReal) (q : Fin 64) :
    (∑ k : Fin 128, catRow x y k * w k q)
      = (∑ k : Fin 64, x k * topHalf w k q) + (∑ k : Fin 64, y k * botHalf w k q) := by
  have h := Fin.sum_univ_add (M := EReal) (a := 64) (b := 64) (fun k : Fin (64 + 64) => catRow x y k * w k q)
  have h1 : ∀ k : Fin 64, catRow x y (Fin.castAdd 64 k : Fin (64 + 64)) * w (Fin.castAdd 64 k : Fin (64 + 64)) q = x k * topHalf w k q := by
    intro k
    have hk : (Fin.castAdd 64 k : Fin (64 + 64)).val < 64 := k.isLt
    unfold catRow topHalf
    rw [dif_pos hk]
    rfl
  have h2 : ∀ k : Fin 64, catRow x y (Fin.natAdd 64 k : Fin (64 + 64)) * w (Fin.natAdd 64 k : Fin (64 + 64)) q = y k * botHalf w k q := by
    intro k
    have hk : ¬ (Fin.natAdd 64 k : Fin (64 + 64)).val < 64 := by
      show ¬ (64 + k.val < 64); omega
    unfold catRow botHalf
    rw [dif_neg hk]
    have e : (⟨(Fin.natAdd 64 k : Fin (64 + 64)).val - 64, by have := k.isLt; show 64 + k.val - 64 < 64; omega⟩ : Fin 64) = k :=
      Fin.ext (by show 64 + k.val - 64 = k.val; omega)
    rw [e]
    rfl
  refine h.trans ?_
  rw [Finset.sum_congr rfl fun k _ => h1 k, Finset.sum_congr rfl fun k _ => h2 k]

/-- The layer's entry written with ONE contraction over the concatenated row. -/
theorem lin2_eq_cat (x y : Fin 64 → EReal) (w : Fin 128 → Fin 64 → EReal) (b : Fin 64 → EReal) (q : Fin 64) :
    (∑ k : Fin 128, catRow x y k * w k q) + b q = lin2 x y (topHalf w) (botHalf w) b q := by
  unfold lin2
  rw [sum_cat]

/-! ## The same over arrays of literal shapes -/

/-- Row `r` of an `R × 64` array. -/
abbrev rowOf {R : Nat} (a : (⟨2, ![R, 64]⟩ : Shape).Idx → EReal) (r : Fin R) : Fin 64 → EReal := fun k => a (ix2 r k)
/-- A `64 × 64` array as a matrix. -/
abbrev matOf (w : (⟨2, ![64, 64]⟩ : Shape).Idx → EReal) : Fin 64 → Fin 64 → EReal := fun k q => w (ix2 k q)
/-- A `128 × 64` array as a matrix. -/
abbrev matOf128 (w : (⟨2, ![128, 64]⟩ : Shape).Idx → EReal) : Fin 128 → Fin 64 → EReal := fun k q => w (ix2 k q)
/-- A length-64 array as a vector. -/
abbrev vecOf (b : (⟨1, ![64]⟩ : Shape).Idx → EReal) : Fin 64 → EReal := fun q => b (ix1 q)

/-- The layer applied to every row of two `R × 64` arrays: entry `(r, q)` is `lin2` of the two rows `r`. -/
def linArr {R : Nat} (x y : (⟨2, ![R, 64]⟩ : Shape).Idx → EReal) (wx wy : (⟨2, ![64, 64]⟩ : Shape).Idx → EReal)
    (b : (⟨1, ![64]⟩ : Shape).Idx → EReal) : (⟨2, ![R, 64]⟩ : Shape).Idx → EReal :=
  fun i => lin2 (rowOf x ⟨(i 0).val, idx2_lt0 i⟩) (rowOf y ⟨(i 0).val, idx2_lt0 i⟩) (matOf wx) (matOf wy) (vecOf b) ⟨(i 1).val, idx2_lt1 i⟩

theorem linArr_ix2 {R : Nat} (x y : (⟨2, ![R, 64]⟩ : Shape).Idx → EReal) (wx wy : (⟨2, ![64, 64]⟩ : Shape).Idx → EReal)
    (b : (⟨1, ![64]⟩ : Shape).Idx → EReal) (r : Fin R) (q : Fin 64) :
    linArr x y wx wy b (ix2 r q) = lin2 (rowOf x r) (rowOf y r) (matOf wx) (matOf wy) (vecOf b) q := rfl

/-- The layer followed by max(·, 0), applied to every row of two `R × 64` arrays. -/
def reluArr {R : Nat} (x y : (⟨2, ![R, 64]⟩ : Shape).Idx → EReal) (wx wy : (⟨2, ![64, 64]⟩ : Shape).Idx → EReal)
    (b : (⟨1, ![64]⟩ : Shape).Idx → EReal) : (⟨2, ![R, 64]⟩ : Shape).Idx → EReal :=
  fun i => max (linArr x y wx wy b i) 0

theorem reluArr_ix2 {R : Nat} (x y : (⟨2, ![R, 64]⟩ : Shape).Idx → EReal) (wx wy : (⟨2, ![64, 64]⟩ : Shape).Idx → EReal)
    (b : (⟨1, ![64]⟩ : Shape).Idx → EReal) (r : Fin R) (q : Fin 64) :
    reluArr x y wx wy b (ix2 r q) = max (lin2 (rowOf x r) (rowOf y r) (matOf wx) (matOf wy) (vecOf b) q) 0 := rfl

end Cert.Sage

end
-- ==== Proof.PayMsg.lean ====
/-
  What the edge-message kernel's body stores, entry by entry, on the extended reals.

  The body loads a block of 16000 rows of each of its two row inputs, the two 64 × 64 weight blocks and the bias, narrows
  the four matrix operands to bf16 (the identity on extended reals), multiplies each row block by its weight block on the
  matrix unit into a zero accumulator (so each product entry is the plain 64-term sum), adds the two products, and adds the
  bias broadcast down the rows. Entry (p, q) of what it stores is therefore the layer's entry
  `lin2` of rows p of the two row blocks.
-/
import proofs.«170268_j6528350290008_1_alg».proof.Proof.Gen.KernelIdeal.Skeleton
import proofs.«170268_j6528350290008_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PayMsg

open Cert.KernelIdeal Cert.KernelIdeal.Gen Idealize.ShloMosaic Idealize.ShloMosaic.ValueIdx Cert.Sage

/-! ## The matrix unit's product into a zero accumulator, at an entry -/

theorem lhs_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- Entry (p, q) of a row block times a 64 × 64 block, accumulated from zero: row p against column q. -/
theorem matmul_zero_at (l : FVec Ideal S16000x64 .bf16) (r : FVec Ideal S64x64 .bf16) (p : Fin 16000) (q : Fin 64) :
    matmul dot_S16000x64_S64x64_S16000x64_1_0_0_1_n_n none l r (constant (F := Ideal) S16000x64 .f32 0x00000000#32) (ix2 p q)
      = ∑ k : Fin 64, l (ix2 p k) * r (ix2 k q) := by
  show FloatOps.matmul (F := Ideal) dot_S16000x64_S64x64_S16000x64_1_0_0_1_n_n none l r (constant (F := Ideal) S16000x64 .f32 0x00000000#32) (ix2 p q) = _
  rw [Ideal.matmul_constant_zero_apply, ← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun a => Fin.ext (by
    match a with
    | ⟨0, _⟩ => exact lhs_0 _ _
    | ⟨1, _⟩ => exact (lhs_1 _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The bias, broadcast down the rows -/

/-- The length-64 bias viewed as one row and repeated down 16000 rows reads, at (p, q), its entry q. -/
theorem bias_at (b : Vec Ideal S64 .f32) (p : Fin 16000) (q : Fin 64) :
    broadcastTo S16000x64 (shapeCast S1x64 b shapeCasts_S64_S1x64) broadcasts_S1x64_S16000x64 (ix2 p q) = b (ix1 q) := by
  rw [broadcastTo_apply _ broadcasts_S1x64_S16000x64 (ix2 p q) (ix2 (0 : Fin 1) q) (fun a => by
    match a with
    | ⟨0, _⟩ => rfl
    | ⟨1, _⟩ => rfl)]
  rw [shapeCast_addUnit_apply (![64] : Fin 1 → Nat) b shapeCasts_S64_S1x64 (ix2 (0 : Fin 1) q)]
  exact congrArg b (funext fun a => by match a with | ⟨0, _⟩ => rfl)

/-! ## The payload -/

/-- Entry (p, q) of what the body stores: the layer's entry of rows p of the two row blocks. -/
theorem pay_at (x0 x1 : Vec Ideal S16000x64 .f32) (x2 x3 : Vec Ideal S64x64 .f32) (x4 : Vec Ideal S64 .f32) (p : Fin 16000) (q : Fin 64) :
    k0_pay1 (F := Ideal) x0 x1 x2 x3 x4 (ix2 p q)
      = lin2 (rowOf x0 p) (rowOf x1 p) (matOf x2) (matOf x3) (vecOf x4) q := by
  unfold k0_pay1
  simp only [shapeCast_self]
  rw [addf_apply, addf_apply, matmul_zero_at, matmul_zero_at, bias_at]
  rfl

/-- The same against whole arrays. If the two row blocks are rows `o … o + 15999` of two 1200000-row arrays, and the weight
    and bias blocks are the whole weight and bias arrays, then entry `j` of the stored block is the layer's entry of the
    arrays at row `o + j₀`, column `j₁`. -/
theorem block_at (x0 x1 : Vec Ideal S16000x64 .f32) (x2 x3 : Vec Ideal S64x64 .f32) (x4 : Vec Ideal S64 .f32)
    (A0 A1 : Vec Ideal S1200000x64 .f32) (A2 A3 : Vec Ideal S64x64 .f32) (A4 : Vec Ideal S64 .f32)
    (o : Nat) (ho : o + 16000 ≤ 1200000)
    (h0 : ∀ (p : Fin 16000) (k : Fin 64), x0 (ix2 p k) = A0 (ix2 ⟨o + p.val, by have := p.isLt; omega⟩ k))
    (h1 : ∀ (p : Fin 16000) (k : Fin 64), x1 (ix2 p k) = A1 (ix2 ⟨o + p.val, by have := p.isLt; omega⟩ k))
    (h2 : x2 = A2) (h3 : x3 = A3) (h4 : x4 = A4)
    (j : S16000x64.Idx) (i : S1200000x64.Idx) (hi0 : (i 0).val = o + (j 0).val) (hi1 : (i 1).val = (j 1).val) :
    k0_pay1 (F := Ideal) x0 x1 x2 x3 x4 j = linArr A0 A1 A2 A3 A4 i := by
  obtain ⟨p, q, rfl⟩ : ∃ (p : Fin 16000) (q : Fin 64), j = ix2 p q := ⟨j 0, j 1, eq_ix2 j⟩
  have hi : i = ix2 ⟨o + p.val, by have := p.isLt; omega⟩ q := by
    funext a; apply Fin.ext
    match a with
    | ⟨0, _⟩ => exact hi0
    | ⟨1, _⟩ => exact hi1
  have r0 : rowOf x0 p = rowOf A0 ⟨o + p.val, by have := p.isLt; omega⟩ := funext fun k => h0 p k
  have r1 : rowOf x1 p = rowOf A1 ⟨o + p.val, by have := p.isLt; omega⟩ := funext fun k => h1 p k
  rw [hi, pay_at, linArr_ix2, r0, r1, h2, h3, h4]

end Cert.KernelIdeal.PayMsg

end
-- ==== Proof.MsgArr.lean ====
/-
  The edge-message region's output array after its run, as ONE function of the arrays the region finds.

  The region runs the edge-message body at 75 grid points. Point t stages rows 16000·t … 16000·t + 15999 of the gathered
  source-node features and of the edge features, the two whole 64 × 64 weight blocks and the whole bias, and writes back
  rows 16000·t … 16000·t + 15999 of the message array. What it writes at row r, column q is the layer's entry `lin2` of
  rows r of the two inputs, whichever point covers r; the 75 blocks tile the 1200000 rows, so the whole array ends
  holding `linArr` of the five arrays.
-/
import proofs.«170268_j6528350290008_1_alg».proof.Proof.Gen.KernelIdeal.Frame
import proofs.«170268_j6528350290008_1_alg».proof.Proof.PayMsg
import Idealize.ShloMosaic.Lib.Pipeline.Value

set_option maxRecDepth 16384

noncomputable section

namespace Cert.KernelIdeal.MsgArr

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-! ## The five arrays the region reads, at their literal types -/

/-- The gathered source-node features, one row per edge. -/
abbrev aSrc (c : Dev nD) : Vec Ideal S1200000x64 .f32 := V c main_v6
/-- The edge features. -/
abbrev aEdge (c : Dev nD) : Vec Ideal S1200000x64 .f32 := V c main_arg1
/-- The weights applied to the source-node features. -/
abbrev aWn (c : Dev nD) : Vec Ideal S64x64 .f32 := V c main_v7
/-- The weights applied to the edge features. -/
abbrev aWe (c : Dev nD) : Vec Ideal S64x64 .f32 := V c main_v8
/-- The bias. -/
abbrev aB (c : Dev nD) : Vec Ideal S64 .f32 := V c main_arg5

/-- The message array: the layer applied to every edge's pair of rows. -/
def msgOf (c : Dev nD) : Vec Ideal S1200000x64 .f32 := linArr (aSrc V c) (aEdge V c) (aWn V c) (aWe V c) (aB V c)

/-! ## Where each window's block lies -/

theorem hz2 : (![0, 0] : Fin 2 → Nat) = fun _ => 0 := funext fun a => by fin_cases a <;> rfl
theorem hz1 : (![0] : Fin 1 → Nat) = fun _ => 0 := funext fun a => by fin_cases a; rfl

theorem t_lt (t : Fin cfg0.N) : t.val < 75 := lt_of_lt_of_eq t.isLt N_0

/-- The printed index maps over the 75 points: the two row inputs and the output move one block down per point, the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of point t's block of the gathered features is row 16000·t + p of the array. -/
theorem rows_src (c : Dev nD) (t : Fin cfg0.N) (p : Fin 16000) (k : Fin 64) :
    (iblk0 V c 0 t : Vec Ideal S16000x64 .f32) (ix2 p k)
      = aSrc V c (ix2 ⟨t.val * 16000 + p.val, by have := t_lt t; have := p.isLt; omega⟩ k) := by
  obtain ⟨e0, e1, -⟩ := idx_facts t
  have e : ((cfg0.win 0).blk t).view.emb (ix2 p k) = ix2 ⟨t.val * 16000 + p.val, by have := t_lt t; have := p.isLt; omega⟩ k := by
    funext a; apply Fin.ext
    match a with
    | ⟨0, _⟩ => show win0_0.index t (0 : Fin 2) * 16000 + 1 * p.val = t.val * 16000 + p.val; omega
    | ⟨1, _⟩ => show win0_0.index t (1 : Fin 2) * 64 + 1 * k.val = k.val; omega
  show V c main_v6 (((cfg0.win 0).blk t).view.emb (ix2 p k)) = _
  rw [e]

/-- Row p of point t's block of the edge features is row 16000·t + p of the array. -/
theorem rows_edge (c : Dev nD) (t : Fin cfg0.N) (p : Fin 16000) (k : Fin 64) :
    (iblk0 V c 1 t : Vec Ideal S16000x64 .f32) (ix2 p k)
      = aEdge V c (ix2 ⟨t.val * 16000 + p.val, by have := t_lt t; have := p.isLt; omega⟩ k) := by
  obtain ⟨-, -, e0, e1, -⟩ := idx_facts t
  have e : ((cfg0.win 1).blk t).view.emb (ix2 p k) = ix2 ⟨t.val * 16000 + p.val, by have := t_lt t; have := p.isLt; omega⟩ k := by
    funext a; apply Fin.ext
    match a with
    | ⟨0, _⟩ => show win0_1.index t (0 : Fin 2) * 16000 + 1 * p.val = t.val * 16000 + p.val; omega
    | ⟨1, _⟩ => show win0_1.index t (1 : Fin 2) * 64 + 1 * k.val = k.val; omega
  show V c main_arg1 (((cfg0.win 1).blk t).view.emb (ix2 p k)) = _
  rw [e]

/-- Every point's block of the source weights is the whole array. -/
theorem blk_wn (c : Dev nD) (t : Fin cfg0.N) : (iblk0 V c 2 t : Vec Ideal S64x64 .f32) = aWn V c := by
  obtain ⟨-, -, -, -, e0, e1, -⟩ := idx_facts t
  funext y
  have e : ((cfg0.win 2).blk t).view.emb y = y := by
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  show V c main_v7 (((cfg0.win 2).blk t).view.emb y) = V c main_v7 y
  rw [e]

/-- Every point's block of the edge weights is the whole array. -/
theorem blk_we (c : Dev nD) (t : Fin cfg0.N) : (iblk0 V c 3 t : Vec Ideal S64x64 .f32) = aWe V c := by
  obtain ⟨-, -, -, -, -, -, e0, e1, -⟩ := idx_facts t
  funext y
  have e : ((cfg0.win 3).blk t).view.emb y = y := by
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  show V c main_v8 (((cfg0.win 3).blk t).view.emb y) = V c main_v8 y
  rw [e]

/-- Every point's block of the bias is the whole array. -/
theorem blk_b (c : Dev nD) (t : Fin cfg0.N) : (iblk0 V c 4 t : Vec Ideal S64 .f32) = aB V c := by
  obtain ⟨-, -, -, -, -, -, -, -, e0, -⟩ := idx_facts t
  funext y
  have e : ((cfg0.win 4).blk t).view.emb y = y := by
    funext a; apply Fin.ext
    match a with
    | ⟨0, _⟩ => show win0_4.index t (0 : Fin 1) * 64 + 1 * (y 0).val = (y 0).val; omega
  show V c main_arg5 (((cfg0.win 4).blk t).view.emb y) = V c main_arg5 y
  rw [e]

/-! ## What a point writes back, and the whole array -/

/-- WHAT POINT t WRITES BACK is block t of the message array. -/
theorem flushed_eq (c : Dev nD) (t : Fin cfg0.N) :
    (dat0 V c).flushed 5 t = ((cfg0.win 5).blk t).view.read (Elt Ideal) (msgOf V c) := by
  show (cfg0.win 5).cut (grid0.coords t) ((dat0 V c).after 5 t) = _
  rw [after0_5]
  unfold out0_5
  rw [View.canon_unit_zero hz2]
  simp only [View.ld_unit_zero (S := S16000x64) hz2, View.ld_unit_zero (S := S64x64) hz2, View.ld_unit_zero (S := S64) hz1]
  obtain ⟨-, -, -, -, -, -, -, -, -, e0, e1⟩ := idx_facts t
  funext j
  show k0_pay1 (F := Ideal) (iblk0 V c 0 t) (iblk0 V c 1 t) (iblk0 V c 2 t) (iblk0 V c 3 t) (iblk0 V c 4 t) j
      = linArr (aSrc V c) (aEdge V c) (aWn V c) (aWe V c) (aB V c) (((cfg0.win 5).blk t).view.emb j)
  exact PayMsg.block_at (iblk0 V c 0 t) (iblk0 V c 1 t) (iblk0 V c 2 t) (iblk0 V c 3 t) (iblk0 V c 4 t)
    (aSrc V c) (aEdge V c) (aWn V c) (aWe V c) (aB V c) (t.val * 16000) (by have := t_lt t; omega)
    (rows_src V c t) (rows_edge V c t) (blk_wn V c t) (blk_we V c t) (blk_b V c t) j (((cfg0.win 5).blk t).view.emb j)
    (by show win0_5.index t (0 : Fin 2) * 16000 + 1 * (j 0).val = t.val * 16000 + (j 0).val; omega)
    (by show win0_5.index t (1 : Fin 2) * 64 + 1 * (j 1).val = (j 1).val; omega)

/-- An index of the array is in point t's block iff each coordinate is in the block's range on its axis. -/
theorem mem_blk (t : Fin cfg0.N) (i : S1200000x64.Idx) :
    i ∈ ((cfg0.win 5).blk t).view.set ↔ ∀ a : Fin 2, win0_5.index t a * S16000x64.size a ≤ (i a).val ∧ (i a).val < win0_5.index t a * S16000x64.size a + S16000x64.size a := by
  show i ∈ ((View.whole main_v9).slice (win0_5.rect t)).set ↔ _
  rw [View.set_slice_whole, Rect.mem_set_unit]
  exact Iff.rfl

/-- The 75 blocks cover the array: row r lies in the block of point r / 16000. -/
theorem cover (i : S1200000x64.Idx) : ∃ t : Fin cfg0.N, (cfg0.win 5).flush t = true ∧ i ∈ ((cfg0.win 5).blk t).view.set := by
  have hi0 : (i 0).val < 1200000 := (i 0).isLt
  have hi1 : (i 1).val < 64 := (i 1).isLt
  have hN : (i 0).val / 16000 < cfg0.N := lt_of_lt_of_eq (by omega : (i 0).val / 16000 < 75) N_0.symm
  obtain ⟨-, -, -, -, -, -, -, -, -, e0, e1⟩ := idx_facts ⟨(i 0).val / 16000, hN⟩
  refine ⟨⟨(i 0).val / 16000, hN⟩, flush0_5 _, ?_⟩
  rw [mem_blk]
  intro a
  match a with
  | ⟨0, _⟩ =>
    show win0_5.index ⟨(i 0).val / 16000, hN⟩ (0 : Fin 2) * 16000 ≤ (i 0).val ∧ (i 0).val < win0_5.index ⟨(i 0).val / 16000, hN⟩ (0 : Fin 2) * 16000 + 16000
    have e0' : win0_5.index ⟨(i 0).val / 16000, hN⟩ (0 : Fin 2) = (i 0).val / 16000 := e0
    omega
  | ⟨1, _⟩ =>
    show win0_5.index ⟨(i 0).val / 16000, hN⟩ (1 : Fin 2) * 64 ≤ (i 1).val ∧ (i 1).val < win0_5.index ⟨(i 0).val / 16000, hN⟩ (1 : Fin 2) * 64 + 64
    omega

/-- THE ARRAY after the region: the message array of the five arrays the region found. -/
theorem final (c : Dev nD) : (dat0 V c).arrAt 5 cfg0.N = msgOf V c :=
  (dat0 V c).arrAt_eq_of_cover 5 (msgOf V c) (fun t _ => flushed_eq V c t) cover

end Cert.KernelIdeal.MsgArr

end
-- ==== Proof.PayNode.lean ====
/-
  What the node-update kernel's body stores, entry by entry, on the extended reals.

  The body loads a block of 10000 rows of the node features and of the aggregated neighbour messages, the two 64 × 64
  weight blocks and the bias, narrows the four matrix operands to bf16 (the identity on extended reals), multiplies each
  row block by its weight block on the matrix unit into a zero accumulator (so each product entry is the plain 64-term
  sum), adds the two products, adds the bias broadcast down the rows, and takes the maximum with a splat zero. Entry
  (p, q) of what it stores is therefore max(·, 0) of the layer's entry `lin2` of rows p of the two row blocks.
-/
import proofs.«170268_j6528350290008_1_alg».proof.Proof.Gen.KernelIdeal.Skeleton
import proofs.«170268_j6528350290008_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PayNode

open Cert.KernelIdeal Cert.KernelIdeal.Gen Idealize.ShloMosaic Idealize.ShloMosaic.ValueIdx Cert.Sage

/-! ## The matrix unit's product into a zero accumulator, at an entry -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of a 10000-row block times a 64 × 64 block, accumulated from zero: row p against column q. -/
theorem matmul_zero_at (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  show FloatOps.matmul (F := Ideal) dot_S10000x64_S64x64_S10000x64_1_0_0_1_n_n none l r (constant (F := Ideal) S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The bias, broadcast down the rows -/

/-- The length-64 bias viewed as one row and repeated down 10000 rows reads, at (p, q), its entry q. -/
theorem bias_at (b : Vec Ideal S64 .f32) (p : Fin 10000) (q : Fin 64) :
    broadcastTo S10000x64 (shapeCast S1x64 b shapeCasts_S64_S1x64) broadcasts_S1x64_S10000x64 (ix2 p q) = b (ix1 q) := by
  rw [broadcastTo_apply _ broadcasts_S1x64_S10000x64 (ix2 p q) (ix2 (0 : Fin 1) q) (fun a => by
    match a with
    | ⟨0, _⟩ => rfl
    | ⟨1, _⟩ => rfl)]
  rw [shapeCast_addUnit_apply (![64] : Fin 1 → Nat) b shapeCasts_S64_S1x64 (ix2 (0 : Fin 1) q)]
  exact congrArg b (funext fun a => by match a with | ⟨0, _⟩ => rfl)

/-! ## The payload -/

/-- Entry (p, q) of what the body stores: the maximum with zero of the layer's entry of rows p of the two row blocks. -/
theorem pay_at (x0 x1 : Vec Ideal S10000x64 .f32) (x2 x3 : Vec Ideal S64x64 .f32) (x4 : Vec Ideal S64 .f32) (p : Fin 10000) (q : Fin 64) :
    k1_pay1 (F := Ideal) x0 x1 x2 x3 x4 (ix2 p q)
      = max (lin2 (rowOf x0 p) (rowOf x1 p) (matOf x2) (matOf x3) (vecOf x4) q) 0 := by
  unfold k1_pay1
  simp only [shapeCast_self]
  rw [maximumf_apply, addf_apply, addf_apply, matmul_zero_at, matmul_zero_at, bias_at]
  show max _ (Ideal.ofBits .f32 0x00000000#32) = _
  rw [Ideal.ofBits_zero_f32]
  rfl

/-- The same against whole arrays. If the two row blocks are rows `o … o + 9999` of two 100000-row arrays, and the weight
    and bias blocks are the whole weight and bias arrays, then entry `j` of the stored block is max(·, 0) of the layer's
    entry of the arrays at row `o + j₀`, column `j₁`. -/
theorem block_at (x0 x1 : Vec Ideal S10000x64 .f32) (x2 x3 : Vec Ideal S64x64 .f32) (x4 : Vec Ideal S64 .f32)
    (A0 A1 : Vec Ideal S100000x64 .f32) (A2 A3 : Vec Ideal S64x64 .f32) (A4 : Vec Ideal S64 .f32)
    (o : Nat) (ho : o + 10000 ≤ 100000)
    (h0 : ∀ (p : Fin 10000) (k : Fin 64), x0 (ix2 p k) = A0 (ix2 ⟨o + p.val, by have := p.isLt; omega⟩ k))
    (h1 : ∀ (p : Fin 10000) (k : Fin 64), x1 (ix2 p k) = A1 (ix2 ⟨o + p.val, by have := p.isLt; omega⟩ k))
    (h2 : x2 = A2) (h3 : x3 = A3) (h4 : x4 = A4)
    (j : S10000x64.Idx) (i : S100000x64.Idx) (hi0 : (i 0).val = o + (j 0).val) (hi1 : (i 1).val = (j 1).val) :
    k1_pay1 (F := Ideal) x0 x1 x2 x3 x4 j = reluArr A0 A1 A2 A3 A4 i := by
  obtain ⟨p, q, rfl⟩ : ∃ (p : Fin 10000) (q : Fin 64), j = ix2 p q := ⟨j 0, j 1, eq_ix2 j⟩
  have hi : i = ix2 ⟨o + p.val, by have := p.isLt; omega⟩ q := by
    funext a; apply Fin.ext
    match a with
    | ⟨0, _⟩ => exact hi0
    | ⟨1, _⟩ => exact hi1
  have r0 : rowOf x0 p = rowOf A0 ⟨o + p.val, by have := p.isLt; omega⟩ := funext fun k => h0 p k
  have r1 : rowOf x1 p = rowOf A1 ⟨o + p.val, by have := p.isLt; omega⟩ := funext fun k => h1 p k
  rw [hi, pay_at, reluArr_ix2, r0, r1, h2, h3, h4]

end Cert.KernelIdeal.PayNode

end
-- ==== Proof.NodeArr.lean ====
/-
  The node-update region's output array after its run, as ONE function of the arrays the region finds.

  The region runs the node-update body at 10 grid points. Point t stages rows 10000·t … 10000·t + 9999 of the node features
  and of the aggregated neighbour messages, the two whole 64 × 64 weight blocks and the whole bias, and writes back rows
  10000·t … 10000·t + 9999 of the result. What it writes at row r, column q is max(·, 0) of the layer's entry `lin2` of
  rows r of the two inputs, whichever point covers r; the 10 blocks tile the 100000 rows, so the whole array ends holding
  `reluArr` of the five arrays.
-/
import proofs.«170268_j6528350290008_1_alg».proof.Proof.Gen.KernelIdeal.Frame
import proofs.«170268_j6528350290008_1_alg».proof.Proof.PayNode
import Idealize.ShloMosaic.Lib.Pipeline.Value

set_option maxRecDepth 16384

noncomputable section

namespace Cert.KernelIdeal.NodeArr

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-! ## The five arrays the region reads, at their literal types -/

/-- The node features. -/
abbrev aNode (c : Dev nD) : Vec Ideal S100000x64 .f32 := V c main_arg0
/-- The aggregated neighbour messages (the mean over each node's incoming edges, zero for a node with none). -/
abbrev aNeigh (c : Dev nD) : Vec Ideal S100000x64 .f32 := V c main_v23
/-- The weights applied to the node features. -/
abbrev aWn (c : Dev nD) : Vec Ideal S64x64 .f32 := V c main_v24
/-- The weights applied to the aggregated messages. -/
abbrev aWh (c : Dev nD) : Vec Ideal S64x64 .f32 := V c main_v25
/-- The bias. -/
abbrev aB (c : Dev nD) : Vec Ideal S64 .f32 := V c main_arg7

/-- The result array: the layer, then max(·, 0), applied to every node's pair of rows. -/
def nodeOf (c : Dev nD) : Vec Ideal S100000x64 .f32 := reluArr (aNode V c) (aNeigh V c) (aWn V c) (aWh V c) (aB V c)

/-! ## Where each window's block lies -/

theorem hz2 : (![0, 0] : Fin 2 → Nat) = fun _ => 0 := funext fun a => by fin_cases a <;> rfl
theorem hz1 : (![0] : Fin 1 → Nat) = fun _ => 0 := funext fun a => by fin_cases a; rfl

theorem t_lt (t : Fin cfg1.N) : t.val < 10 := lt_of_lt_of_eq t.isLt N_1

/-- The printed index maps over the 10 points: the two row inputs and the output move one block down per point, the
    weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of point t's block of the node features is row 10000·t + p of the array. -/
theorem rows_node (c : Dev nD) (t : Fin cfg1.N) (p : Fin 10000) (k : Fin 64) :
    (iblk1 V c 0 t : Vec Ideal S10000x64 .f32) (ix2 p k)
      = aNode V c (ix2 ⟨t.val * 10000 + p.val, by have := t_lt t; have := p.isLt; omega⟩ k) := by
  obtain ⟨e0, e1, -⟩ := idx_facts t
  have e : ((cfg1.win 0).blk t).view.emb (ix2 p k) = ix2 ⟨t.val * 10000 + p.val, by have := t_lt t; have := p.isLt; omega⟩ k := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  show V c main_arg0 (((cfg1.win 0).blk t).view.emb (ix2 p k)) = _
  rw [e]

/-- Row p of point t's block of the aggregated messages is row 10000·t + p of the array. -/
theorem rows_neigh (c : Dev nD) (t : Fin cfg1.N) (p : Fin 10000) (k : Fin 64) :
    (iblk1 V c 1 t : Vec Ideal S10000x64 .f32) (ix2 p k)
      = aNeigh V c (ix2 ⟨t.val * 10000 + p.val, by have := t_lt t; have := p.isLt; omega⟩ k) := by
  obtain ⟨-, -, e0, e1, -⟩ := idx_facts t
  have e : ((cfg1.win 1).blk t).view.emb (ix2 p k) = ix2 ⟨t.val * 10000 + p.val, by have := t_lt t; have := p.isLt; omega⟩ k := by
    funext a; apply Fin.ext
    match a with
    | ⟨0, _⟩ => show win1_1.index t (0 : Fin 2) * 10000 + 1 * p.val = t.val * 10000 + p.val; omega
    | ⟨1, _⟩ => show win1_1.index t (1 : Fin 2) * 64 + 1 * k.val = k.val; omega
  show V c main_v23 (((cfg1.win 1).blk t).view.emb (ix2 p k)) = _
  rw [e]

/-- Every point's block of the node weights is the whole array. -/
theorem blk_wn (c : Dev nD) (t : Fin cfg1.N) : (iblk1 V c 2 t : Vec Ideal S64x64 .f32) = aWn V c := by
  obtain ⟨-, -, -, -, e0, e1, -⟩ := idx_facts t
  funext y
  have e : ((cfg1.win 2).blk t).view.emb y = y := by
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  show V c main_v24 (((cfg1.win 2).blk t).view.emb y) = V c main_v24 y
  rw [e]

/-- Every point's block of the message weights is the whole array. -/
theorem blk_wh (c : Dev nD) (t : Fin cfg1.N) : (iblk1 V c 3 t : Vec Ideal S64x64 .f32) = aWh V c := by
  obtain ⟨-, -, -, -, -, -, e0, e1, -⟩ := idx_facts t
  funext y
  have e : ((cfg1.win 3).blk t).view.emb y = y := by
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  show V c main_v25 (((cfg1.win 3).blk t).view.emb y) = V c main_v25 y
  rw [e]

/-- Every point's block of the bias is the whole array. -/
theorem blk_b (c : Dev nD) (t : Fin cfg1.N) : (iblk1 V c 4 t : Vec Ideal S64 .f32) = aB V c := by
  obtain ⟨-, -, -, -, -, -, -, -, e0, -⟩ := idx_facts t
  funext y
  have e : ((cfg1.win 4).blk t).view.emb y = y := by
    funext a; apply Fin.ext
    match a with
    | ⟨0, _⟩ => show win1_4.index t (0 : Fin 1) * 64 + 1 * (y 0).val = (y 0).val; omega
  show V c main_arg7 (((cfg1.win 4).blk t).view.emb y) = V c main_arg7 y
  rw [e]

/-! ## What a point writes back, and the whole array -/

/-- WHAT POINT t WRITES BACK is block t of the result array. -/
theorem flushed_eq (c : Dev nD) (t : Fin cfg1.N) :
    (dat1 V c).flushed 5 t = ((cfg1.win 5).blk t).view.read (Elt Ideal) (nodeOf V c) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S64) hz1]
  obtain ⟨-, -, -, -, -, -, -, -, -, e0, e1⟩ := idx_facts t
  funext j
  show k1_pay1 (F := Ideal) (iblk1 V c 0 t) (iblk1 V c 1 t) (iblk1 V c 2 t) (iblk1 V c 3 t) (iblk1 V c 4 t) j
      = reluArr (aNode V c) (aNeigh V c) (aWn V c) (aWh V c) (aB V c) (((cfg1.win 5).blk t).view.emb j)
  exact PayNode.block_at (iblk1 V c 0 t) (iblk1 V c 1 t) (iblk1 V c 2 t) (iblk1 V c 3 t) (iblk1 V c 4 t)
    (aNode V c) (aNeigh V c) (aWn V c) (aWh V c) (aB V c) (t.val * 10000) (by have := t_lt t; omega)
    (rows_node V c t) (rows_neigh V c t) (blk_wn V c t) (blk_wh V c t) (blk_b V c t) j (((cfg1.win 5).blk t).view.emb j)
    (by show win1_5.index t (0 : Fin 2) * 10000 + 1 * (j 0).val = t.val * 10000 + (j 0).val; omega)
    (by show win1_5.index t (1 : Fin 2) * 64 + 1 * (j 1).val = (j 1).val; omega)

/-- An index of the array is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v26).slice (win1_5.rect t)).set ↔ _
  rw [View.set_slice_whole, Rect.mem_set_unit]
  exact Iff.rfl

/-- The 10 blocks cover the array: row r lies in the block of point r / 10000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < cfg1.N := lt_of_lt_of_eq (by omega : (i 0).val / 10000 < 10) N_1.symm
  obtain ⟨-, -, -, -, -, -, -, -, -, e0, e1⟩ := idx_facts ⟨(i 0).val / 10000, hN⟩
  refine ⟨⟨(i 0).val / 10000, hN⟩, flush1_5 _, ?_⟩
  rw [mem_blk]
  intro a
  match a with
  | ⟨0, _⟩ =>
    show win1_5.index ⟨(i 0).val / 10000, hN⟩ (0 : Fin 2) * 10000 ≤ (i 0).val ∧ (i 0).val < win1_5.index ⟨(i 0).val / 10000, hN⟩ (0 : Fin 2) * 10000 + 10000
    have e0' : win1_5.index ⟨(i 0).val / 10000, hN⟩ (0 : Fin 2) = (i 0).val / 10000 := e0
    omega
  | ⟨1, _⟩ =>
    show win1_5.index ⟨(i 0).val / 10000, hN⟩ (1 : Fin 2) * 64 ≤ (i 1).val ∧ (i 1).val < win1_5.index ⟨(i 0).val / 10000, hN⟩ (1 : Fin 2) * 64 + 64
    omega

/-- THE ARRAY after the region: the result array of the five arrays the region found. -/
theorem final (c : Dev nD) : (dat1 V c).arrAt 5 cfg1.N = nodeOf V c :=
  (dat1 V c).arrAt_eq_of_cover 5 (nodeOf V c) (fun t _ => flushed_eq V c t) cover

end Cert.KernelIdeal.NodeArr

end
-- ==== Proof.HostV.lean ====
/-
  What the kernel's program computes, read through its host stretches.

  Region 0 finds, at its five windows, the gathered source rows `x[src]`, the edge features, the two halves of the stacked
  message weights and the message bias; it leaves the message array. The host stretch between the regions turns the message
  array and the destination indices into the per-node mean (carried as one function, never opened). Region 1 finds the node
  features, that mean, the two halves of the stacked update weights and the update bias; it leaves the result. No host
  operation and no region writes an argument, so each argument is read as launched.
-/
import proofs.«170268_j6528350290008_1_alg».proof.Proof.Gen.KernelIdeal.Frame
import proofs.«170268_j6528350290008_1_alg».proof.Proof.Mid
import proofs.«170268_j6528350290008_1_alg».proof.Proof.MsgArr
import proofs.«170268_j6528350290008_1_alg».proof.Proof.NodeArr
import Idealize.ShloMosaic.Lib.StableHlo.Run

set_option maxRecDepth 16384

noncomputable section

namespace Cert.KernelIdeal.HostV

open Cert.KernelIdeal Cert.KernelIdeal.Gen Idealize.ShloMosaic Idealize.ShloMosaic.TcCoe Idealize.SL.Sem
open Idealize.ShloMosaic.StableHlo Cert.Mid Cert.Sage

variable (m : (ℓ : Loc nD τ sig) → Buf (Elt Ideal) ℓ) (ρ : Dev nD → PrngReg)

/-! ## The arguments, as each region finds them -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results

theorem W2_arg0 (c : Dev nD) : W2 m ρ c (Proc.devRef .tc main_arg0) = m ((c : Thread nD τ).loc main_arg0) :=
  (W2_of_ne m ρ c main_arg0 (by decide)).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## Region 0's five arrays -/

/-- The gathered source rows. -/
theorem src_eq (c : Dev nD) : MsgArr.aSrc (V1 m ρ) c = gatherK (F := Ideal) (m ((c : Thread nD τ).loc main_arg0)) (m ((c : Thread nD τ).loc main_arg2)) := by
  show StableHlo.after hostOps0 (W0 m ρ c) (Proc.devRef .tc main_v6) = _
  unfold gatherK
  dsimp only [hostOps0]
  after_results

/-- The edge features. -/
theorem edge_eq (c : Dev nD) : MsgArr.aEdge (V1 m ρ) c = m ((c : Thread nD τ).loc main_arg1) := W1_arg1 m ρ c

/-- Rows 0–63 of the stacked message weights. -/
theorem wn0_eq (c : Dev nD) : MsgArr.aWn (V1 m ρ) c = extractStridedSlice S64x64 ![0, 0] (m ((c : Thread nD τ).loc main_arg4)) slices_S128x64_S64x64_0_0 := by
  show StableHlo.after hostOps0 (W0 m ρ c) (Proc.devRef .tc main_v7) = _
  dsimp only [hostOps0]
  after_results

/-- Rows 64–127 of the stacked message weights. -/
theorem we0_eq (c : Dev nD) : MsgArr.aWe (V1 m ρ) c = extractStridedSlice S64x64 ![64, 0] (m ((c : Thread nD τ).loc main_arg4)) slices_S128x64_S64x64_64_0 := by
  show StableHlo.after hostOps0 (W0 m ρ c) (Proc.devRef .tc main_v8) = _
  dsimp only [hostOps0]
  after_results

/-- The message bias. -/
theorem b0_eq (c : Dev nD) : MsgArr.aB (V1 m ρ) c = m ((c : Thread nD τ).loc main_arg5) := W1_arg5 m ρ c

/-- THE MESSAGE ARRAY region 0 leaves: the layer over `x[src]` and the edge features. -/
theorem msg_eq (c : Dev nD) :
    W2 m ρ c (Proc.devRef .tc main_v9)
      = linArr (gatherK (F := Ideal) (m ((c : Thread nD τ).loc main_arg0)) (m ((c : Thread nD τ).loc main_arg2))) (m ((c : Thread nD τ).loc main_arg1))
          (extractStridedSlice S64x64 ![0, 0] (m ((c : Thread nD τ).loc main_arg4)) slices_S128x64_S64x64_0_0)
          (extractStridedSlice S64x64 ![64, 0] (m ((c : Thread nD τ).loc main_arg4)) slices_S128x64_S64x64_64_0) (m ((c : Thread nD τ).loc main_arg5)) := by
  rw [show W2 m ρ c (Proc.devRef .tc main_v9) = (dat0 (V1 m ρ) c).arrAt 5 cfg0.N from W2_arr m ρ c 5, MsgArr.final]
  unfold MsgArr.msgOf
  rw [src_eq, edge_eq, wn0_eq, we0_eq, b0_eq]

/-! ## Region 1's five arrays -/

/-- The node features. -/
theorem node_eq (c : Dev nD) : NodeArr.aNode (V5 m ρ) c = m ((c : Thread nD τ).loc main_arg0) := by
  show StableHlo.after hostOps1_2 (StableHlo.after hostOps1_1 (StableHlo.after hostOps1 (W2 m ρ c))) (Proc.devRef .tc main_arg0) = _
  dsimp only [hostOps1_2, hostOps1_1, hostOps1]
  after_results
  exact W2_arg0 m ρ c

set_option maxHeartbeats 2000000 in
/-- The host stretch between the regions, from ANY buffer contents `W` and at any float instance: the buffer region 1 reads
    its second input from ends at the per-node mean of the message buffer's contents by the destination indices' contents. -/
theorem mean_fold {F : FTy → Type} [FloatOps F] (W : Valuation τ sig (Elt F)) :
    StableHlo.after (hostOps1_2 (F := F)) (StableHlo.after hostOps1_1 (StableHlo.after hostOps1 W)) (Proc.devRef .tc main_v23)
      = meanK (F := F) (W (Proc.devRef .tc main_v9)) (W (Proc.devRef .tc main_arg3)) := by
  unfold meanK degK
  dsimp only [hostOps1_2, hostOps1_1, hostOps1]
  after_results_simp
  rfl

/-- The per-node mean of the messages region 0 left. -/
theorem neigh_eq (c : Dev nD) :
    NodeArr.aNeigh (V5 m ρ) c = meanK (F := Ideal) (W2 m ρ c (Proc.devRef .tc main_v9)) (m ((c : Thread nD τ).loc main_arg3)) := by
  show StableHlo.after hostOps1_2 (StableHlo.after hostOps1_1 (StableHlo.after hostOps1 (W2 m ρ c))) (Proc.devRef .tc main_v23) = _
  rw [mean_fold (W2 m ρ c), W2_arg3]

/-- Rows 0–63 of the stacked update weights. -/
theorem wn1_eq (c : Dev nD) : NodeArr.aWn (V5 m ρ) c = extractStridedSlice S64x64 ![0, 0] (m ((c : Thread nD τ).loc main_arg6)) slices_S128x64_S64x64_0_0 := by
  show StableHlo.after hostOps1_2 (StableHlo.after hostOps1_1 (StableHlo.after hostOps1 (W2 m ρ c))) (Proc.devRef .tc main_v24) = _
  dsimp only [hostOps1_2, hostOps1_1, hostOps1]
  after_results
  rw [W2_arg6]

/-- Rows 64–127 of the stacked update weights. -/
theorem wh1_eq (c : Dev nD) : NodeArr.aWh (V5 m ρ) c = extractStridedSlice S64x64 ![64, 0] (m ((c : Thread nD τ).loc main_arg6)) slices_S128x64_S64x64_64_0 := by
  show StableHlo.after hostOps1_2 (StableHlo.after hostOps1_1 (StableHlo.after hostOps1 (W2 m ρ c))) (Proc.devRef .tc main_v25) = _
  dsimp only [hostOps1_2, hostOps1_1, hostOps1]
  after_results
  rw [W2_arg6]

/-- The update bias. -/
theorem b1_eq (c : Dev nD) : NodeArr.aB (V5 m ρ) c = m ((c : Thread nD τ).loc main_arg7) := by
  show StableHlo.after hostOps1_2 (StableHlo.after hostOps1_1 (StableHlo.after hostOps1 (W2 m ρ c))) (Proc.devRef .tc main_arg7) = _
  dsimp only [hostOps1_2, hostOps1_1, hostOps1]
  after_results
  exact W2_arg7 m ρ c

/-! ## The result -/

/-- What the kernel's program computes from its arguments. -/
def kernelOut (x0 : FVec Ideal S100000x64 .f32) (x1 : FVec Ideal S1200000x64 .f32) (x2 x3 : IVec S1200000 32)
    (x4 : FVec Ideal S128x64 .f32) (x5 : FVec Ideal S64 .f32) (x6 : FVec Ideal S128x64 .f32) (x7 : FVec Ideal S64 .f32) :
    FVec Ideal S100000x64 .f32 :=
  reluArr x0
    (meanK (F := Ideal) (linArr (gatherK x0 x2) x1 (extractStridedSlice S64x64 ![0, 0] x4 slices_S128x64_S64x64_0_0)
      (extractStridedSlice S64x64 ![64, 0] x4 slices_S128x64_S64x64_64_0) x5) x3)
    (extractStridedSlice S64x64 ![0, 0] x6 slices_S128x64_S64x64_0_0)
    (extractStridedSlice S64x64 ![64, 0] x6 slices_S128x64_S64x64_64_0) x7

/-- THE RESULT region 1 leaves is `kernelOut` of the arguments as launched. -/
theorem out_eq (c : Dev nD) :
    W6 m ρ c (Proc.devRef .tc main_v26)
      = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W6 m ρ c (Proc.devRef .tc main_v26) = (dat1 (V5 m ρ) c).arrAt 5 cfg1.N from W6_arr m ρ c 5, NodeArr.final]
  unfold NodeArr.nodeOf kernelOut
  rw [node_eq, neigh_eq, wn1_eq, wh1_eq, b1_eq, msg_eq]

end Cert.KernelIdeal.HostV

end
-- ==== Proof.Slices.lean ====
/-
  The two halves of a stacked 128 × 64 weight matrix, as the kernel's program cuts them.

  The kernel's program slices the stacked weights [Wx ; Wy] into rows 0–63 and rows 64–127 before its matrix products; the
  reference contracts against the stacked matrix whole. Read as matrices, the two slices are the top and bottom halves.
-/
import proofs.«170268_j6528350290008_1_alg».proof.Proof.Spec
import Idealize.ShloMosaic.Lib.Pipeline.Value

noncomputable section

namespace Cert.Sage

open Idealize.ShloMosaic Idealize.ShloMosaic.ValueIdx

/-- Rows 0–63 of the stacked weights. -/
theorem matOf_slice_top (w : (⟨2, ![128, 64]⟩ : Shape).Idx → EReal)
    (h : (⟨2, ![128, 64]⟩ : Shape).Slices ![0, 0] ⟨2, ![64, 64]⟩) :
    matOf (extractStridedSlice ⟨2, ![64, 64]⟩ ![0, 0] w h) = topHalf (matOf128 w) := by
  funext k q
  show extractStridedSlice ⟨2, ![64, 64]⟩ ![0, 0] w h (ix2 k q) = w (ix2 ⟨k.val, by have := k.isLt; omega⟩ q)
  exact extractStridedSlice_apply ![0, 0] w h (ix2 k q) (ix2 ⟨k.val, by have := k.isLt; omega⟩ q) (fun a => by
    match a with
    | ⟨0, _⟩ => show k.val = 0 + k.val; omega
    | ⟨1, _⟩ => show q.val = 0 + q.val; omega)

/-- Rows 64–127 of the stacked weights. -/
theorem matOf_slice_bot (w : (⟨2, ![128, 64]⟩ : Shape).Idx → EReal)
    (h : (⟨2, ![128, 64]⟩ : Shape).Slices ![64, 0] ⟨2, ![64, 64]⟩) :
    matOf (extractStridedSlice ⟨2, ![64, 64]⟩ ![64, 0] w h) = botHalf (matOf128 w) := by
  funext k q
  show extractStridedSlice ⟨2, ![64, 64]⟩ ![64, 0] w h (ix2 k q) = w (ix2 ⟨64 + k.val, by have := k.isLt; omega⟩ q)
  exact extractStridedSlice_apply ![64, 0] w h (ix2 k q) (ix2 ⟨64 + k.val, by have := k.isLt; omega⟩ q) (fun a => by
    match a with
    | ⟨0, _⟩ => show 64 + k.val = 64 + k.val; rfl
    | ⟨1, _⟩ => show q.val = 0 + q.val; omega)

end Cert.Sage

end
-- ==== Proof.RefVal.lean ====
/-
  The reference's two linear layers, read entry by entry, are the layer `lin2` over concatenated rows.

  The reference forms each layer's input by concatenating two 64-wide arrays along the columns and contracts the 128-wide
  rows against the stacked 128 × 64 weights in one `dot_general`, then adds the bias broadcast down the rows (and, for the
  node update, takes the maximum with zero). Entry (r, q) of the concatenated array's row is `catRow` of the two rows r,
  so by the law `lin2_eq_cat` each layer's entry is `lin2` of the two rows against the top and bottom halves of the
  weights, which are the two slices the kernel's program cuts.
-/
import proofs.«170268_j6528350290008_1_alg».proof.Proof.RefRead
import proofs.«170268_j6528350290008_1_alg».proof.Proof.Spec
import proofs.«170268_j6528350290008_1_alg».proof.Proof.Slices
import Idealize.ShloMosaic.Lib.Pipeline.Value
import Idealize.ShloMosaic.Lib.ValueIdx
import Idealize.ShloMosaic.PureOps.Ideal.Laws

noncomputable section

open scoped BigOperators

namespace Cert.ReferenceIdeal.RefVal

open Cert.ReferenceIdeal Cert.ReferenceIdeal.Gen Cert.ReferenceIdeal.ReadP
open Idealize.ShloMosaic Idealize.ShloMosaic.ValueIdx Cert.Sage

/-- The shape of one half of the stacked weights (the reference itself never cuts them). -/
abbrev S64x64 : Shape := ⟨2, ![64, 64]⟩

/-! ## The concatenated rows -/

/-- Entry (r, k) of two 1200000 × 64 arrays joined along the columns. -/
theorem cat_edge_at (g e : FVec Ideal S1200000x64 .f32) (r : Fin 1200000) (k : Fin 128) :
    concatenate S1200000x128 1 [⟨S1200000x64, g⟩, ⟨S1200000x64, e⟩] concatenates_S1200000x64_S1200000x64_S1200000x128_d1 (ix2 r k)
      = catRow (rowOf g r) (rowOf e r) k := by
  unfold catRow
  by_cases hk : k.val < 64
  · rw [dif_pos hk]
    exact concatenate_pair_apply_left 1 g e concatenates_S1200000x64_S1200000x64_S1200000x128_d1 (ix2 r k) rfl (ix2 r ⟨k.val, hk⟩) (fun b => by
      match b with
      | ⟨0, _⟩ => rfl
      | ⟨1, _⟩ => rfl)
  · rw [dif_neg hk]
    exact concatenate_pair_apply_right 1 g e concatenates_S1200000x64_S1200000x64_S1200000x128_d1 (ix2 r k) rfl rfl
      (ix2 r ⟨k.val - 64, by have := k.isLt; omega⟩)
      (fun b hb => by
        match b with
        | ⟨0, _⟩ => rfl
        | ⟨1, _⟩ => exact absurd rfl hb)
      (by show (k.val - 64) + 64 = k.val; omega)

/-- Entry (r, k) of two 100000 × 64 arrays joined along the columns. -/
theorem cat_node_at (x h : FVec Ideal S100000x64 .f32) (r : Fin 100000) (k : Fin 128) :
    concatenate S100000x128 1 [⟨S100000x64, x⟩, ⟨S100000x64, h⟩] concatenates_S100000x64_S100000x64_S100000x128_d1 (ix2 r k)
      = catRow (rowOf x r) (rowOf h r) k := by
  unfold catRow
  by_cases hk : k.val < 64
  · rw [dif_pos hk]
    exact concatenate_pair_apply_left 1 x h concatenates_S100000x64_S100000x64_S100000x128_d1 (ix2 r k) rfl (ix2 r ⟨k.val, hk⟩) (fun b => by
      match b with
      | ⟨0, _⟩ => rfl
      | ⟨1, _⟩ => rfl)
  · rw [dif_neg hk]
    exact concatenate_pair_apply_right 1 x h concatenates_S100000x64_S100000x64_S100000x128_d1 (ix2 r k) rfl rfl
      (ix2 r ⟨k.val - 64, by have := k.isLt; omega⟩)
      (fun b hb => by
        match b with
        | ⟨0, _⟩ => rfl
        | ⟨1, _⟩ => exact absurd rfl hb)
      (by show (k.val - 64) + 64 = k.val; omega)

/-! ## Where the contractions and the bias broadcasts read their operands -/

theorem lidx_edge (r : Fin 1200000) (q : Fin 64) (k : Fin 128) : lidx_main_v8 (ix2 r q) k = ix2 r k :=
  funext fun a => by match a with | ⟨0, _⟩ => rfl | ⟨1, _⟩ => rfl
theorem ridx_edge (r : Fin 1200000) (q : Fin 64) (k : Fin 128) : ridx_main_v8 (ix2 r q) k = ix2 k q :=
  funext fun a => by match a with | ⟨0, _⟩ => rfl | ⟨1, _⟩ => rfl
theorem bias_edge (r : Fin 1200000) (q : Fin 64) : idx_main_v9 (idx_main_v10 (ix2 r q)) = ix1 q :=
  funext fun a => by match a with | ⟨0, _⟩ => rfl
theorem lidx_node (r : Fin 100000) (q : Fin 64) (k : Fin 128) : lidx_main_v27 (ix2 r q) k = ix2 r k :=
  funext fun a => by match a with | ⟨0, _⟩ => rfl | ⟨1, _⟩ => rfl
theorem ridx_node (r : Fin 100000) (q : Fin 64) (k : Fin 128) : ridx_main_v27 (ix2 r q) k = ix2 k q :=
  funext fun a => by match a with | ⟨0, _⟩ => rfl | ⟨1, _⟩ => rfl
theorem bias_node (r : Fin 100000) (q : Fin 64) : idx_main_v28 (idx_main_v29 (ix2 r q)) = ix1 q :=
  funext fun a => by match a with | ⟨0, _⟩ => rfl

/-! ## The two layers -/

/-- THE EDGE MESSAGES of the reference are the layer applied to every edge's gathered source row and feature row, against
    the two halves of the stacked message weights. -/
theorem msg_eq (x0 : FVec Ideal S100000x64 .f32) (x1 : FVec Ideal S1200000x64 .f32) (x2 : IVec S1200000 32)
    (x4 : FVec Ideal S128x64 .f32) (x5 : FVec Ideal S64 .f32)
    (h0 : S128x64.Slices ![0, 0] S64x64) (h1 : S128x64.Slices ![64, 0] S64x64) :
    val_main_v11 (F := Ideal) x0 x1 x2 x4 x5
      = linArr (val_main_v6 (F := Ideal) x0 x2) x1 (extractStridedSlice S64x64 ![0, 0] x4 h0) (extractStridedSlice S64x64 ![64, 0] x4 h1) x5 := by
  funext i
  obtain ⟨r, q, rfl⟩ : ∃ (r : Fin 1200000) (q : Fin 64), i = ix2 r q := ⟨i 0, i 1, eq_ix2 i⟩
  rw [val_main_v11_apply, val_main_v8_apply, val_main_v10_apply, val_main_v9_apply, linArr_ix2, bias_edge,
    matOf_slice_top, matOf_slice_bot]
  have hs : ∀ k : Fin 128, val_main_v7 (F := Ideal) x0 x1 x2 (lidx_main_v8 (ix2 r q) k) * x4 (ridx_main_v8 (ix2 r q) k)
      = catRow (rowOf (val_main_v6 (F := Ideal) x0 x2) r) (rowOf x1 r) k * matOf128 x4 k q := by
    intro k
    rw [lidx_edge, ridx_edge]
    unfold val_main_v7
    rw [cat_edge_at]
  rw [Finset.sum_congr rfl fun k _ => hs k]
  exact lin2_eq_cat _ _ (matOf128 x4) (vecOf x5) q

/-- THE RESULT of the reference is the layer, then max(·, 0), applied to every node's feature row and aggregated-message
    row, against the two halves of the stacked update weights. -/
theorem out_eq (x0 : FVec Ideal S100000x64 .f32) (x1 : FVec Ideal S1200000x64 .f32) (x2 x3 : IVec S1200000 32)
    (x4 : FVec Ideal S128x64 .f32) (x5 : FVec Ideal S64 .f32) (x6 : FVec Ideal S128x64 .f32) (x7 : FVec Ideal S64 .f32)
    (h0 : S128x64.Slices ![0, 0] S64x64) (h1 : S128x64.Slices ![64, 0] S64x64) :
    val_main_v31 (F := Ideal) x0 x1 x2 x3 x4 x5 x6 x7
      = reluArr x0 (val_main_v25 (F := Ideal) x0 x1 x2 x3 x4 x5) (extractStridedSlice S64x64 ![0, 0] x6 h0) (extractStridedSlice S64x64 ![64, 0] x6 h1) x7 := by
  funext i
  obtain ⟨r, q, rfl⟩ : ∃ (r : Fin 100000) (q : Fin 64), i = ix2 r q := ⟨i 0, i 1, eq_ix2 i⟩
  rw [val_main_v31_apply, val_main_v30_apply, val_main_v27_apply, val_main_v29_apply, val_main_v28_apply,
    val_main_call1_v0_apply, val_main_call1_cst_apply, reluArr_ix2, bias_node, matOf_slice_top, matOf_slice_bot]
  have hs : ∀ k : Fin 128, val_main_v26 (F := Ideal) x0 x1 x2 x3 x4 x5 (lidx_main_v27 (ix2 r q) k) * x6 (ridx_main_v27 (ix2 r q) k)
      = catRow (rowOf x0 r) (rowOf (val_main_v25 (F := Ideal) x0 x1 x2 x3 x4 x5) r) k * matOf128 x6 k q := by
    intro k
    rw [lidx_node, ridx_node]
    unfold val_main_v26
    rw [cat_node_at]
  rw [Finset.sum_congr rfl fun k _ => hs k]
  show max ((∑ k : Fin 128, catRow (rowOf x0 r) (rowOf (val_main_v25 (F := Ideal) x0 x1 x2 x3 x4 x5) r) k * matOf128 x6 k q) + vecOf x7 q)
      (Ideal.ofBits .f32 0x00000000#32) = _
  rw [Ideal.ofBits_zero_f32, lin2_eq_cat]

end Cert.ReferenceIdeal.RefVal

end
-- ==== Proof.Bridge.lean ====
/-
  The two programs compute one function of the arguments.

  The kernel's program computes max(·, 0) of the layer over (node features, mean of messages), the messages being the layer
  over (x[src], edge features), each layer against the two slices of its stacked weights. The reference computes the same
  with each layer written as one contraction of concatenated rows (`RefVal`), and its gather and its mean are the
  kernel program's, spelt with its own names (`Mid`).
-/
import proofs.«170268_j6528350290008_1_alg».proof.Proof.HostV
import proofs.«170268_j6528350290008_1_alg».proof.Proof.RefVal
import proofs.«170268_j6528350290008_1_alg».proof.Proof.Mid

noncomputable section

namespace Cert.Bridge

open Idealize.ShloMosaic Cert.Mid Cert.Sage
open Cert.ReferenceIdeal.ReadP

/-- The reference's gather stage is the shared gather. -/
theorem gather_ref {F : FTy → Type} [FloatOps F] (x0 : FVec F Cert.ReferenceIdeal.S100000x64 .f32) (x2 : IVec Cert.ReferenceIdeal.S1200000 32) :
    val_main_v6 (F := F) x0 x2 = gatherR x0 x2 := rfl

/-- The reference's aggregation stage is the shared mean of its message stage. -/
theorem mean_ref {F : FTy → Type} [FloatOps F] (x0 : FVec F Cert.ReferenceIdeal.S100000x64 .f32) (x1 : FVec F Cert.ReferenceIdeal.S1200000x64 .f32)
    (x2 x3 : IVec Cert.ReferenceIdeal.S1200000 32) (x4 : FVec F Cert.ReferenceIdeal.S128x64 .f32) (x5 : FVec F Cert.ReferenceIdeal.S64 .f32) :
    val_main_v25 (F := F) x0 x1 x2 x3 x4 x5 = meanR (val_main_v11 (F := F) x0 x1 x2 x4 x5) x3 := rfl

/-- THE VALUE: what the kernel's program computes is the reference's last stage, as functions of the eight arguments. -/
theorem value_eq (x0 : FVec Ideal Cert.KernelIdeal.S100000x64 .f32) (x1 : FVec Ideal Cert.KernelIdeal.S1200000x64 .f32)
    (x2 x3 : IVec Cert.KernelIdeal.S1200000 32) (x4 : FVec Ideal Cert.KernelIdeal.S128x64 .f32) (x5 : FVec Ideal Cert.KernelIdeal.S64 .f32)
    (x6 : FVec Ideal Cert.KernelIdeal.S128x64 .f32) (x7 : FVec Ideal Cert.KernelIdeal.S64 .f32) :
    Cert.KernelIdeal.HostV.kernelOut x0 x1 x2 x3 x4 x5 x6 x7 = val_main_v31 (F := Ideal) x0 x1 x2 x3 x4 x5 x6 x7 := by
  rw [Cert.ReferenceIdeal.RefVal.out_eq x0 x1 x2 x3 x4 x5 x6 x7 Cert.KernelIdeal.Gen.slices_S128x64_S64x64_0_0 Cert.KernelIdeal.Gen.slices_S128x64_S64x64_64_0,
    mean_ref, Cert.ReferenceIdeal.RefVal.msg_eq x0 x1 x2 x4 x5 Cert.KernelIdeal.Gen.slices_S128x64_S64x64_0_0 Cert.KernelIdeal.Gen.slices_S128x64_S64x64_64_0,
    gather_ref, ← gather_eq, ← mean_eq]
  rfl

end Cert.Bridge

end
-- ==== Proof.lean ====
/-
  A GraphSAGE layer with mean aggregation: the Pallas program against its jnp reference, over the extended reals.

  Both programs compute, for every edge, the message  m = x[src] · Wn + e · We + b  (the stacked message weights [Wn ; We]),
  aggregate the messages per destination node into their mean (zero where a node has no incoming edge), and return
  max(x · Un + mean · Uh + b', 0)  (the stacked update weights [Un ; Uh]). The kernel's program runs each of the two linear
  layers as a Pallas kernel over row blocks, with the two halves of the stacked weights sliced out on the host and two
  64-term products added; the reference concatenates the two inputs along the columns and contracts the 128-wide rows once.
  A 128-term sum splits into its first and last 64 terms on the extended reals with no side condition, so the two are equal
  for all inputs: the precondition is never opened. The gather and the scatter-add mean are the same operations in both
  texts and are carried as one function.

  The frames of the two kernel programs are the generated ones; the reference's frame is its run with the result dropped;
  the idealization rewrote nothing, so `preserves` holds trivially.
-/
import proofs.«170268_j6528350290008_1_alg».proof.Defs
import proofs.«170268_j6528350290008_1_alg».proof.Proof.Gen.Kernel
import proofs.«170268_j6528350290008_1_alg».proof.Proof.Gen.Kernel.Skeleton
import proofs.«170268_j6528350290008_1_alg».proof.Proof.Gen.Kernel.Launch
import proofs.«170268_j6528350290008_1_alg».proof.Proof.Gen.Kernel.Points
import proofs.«170268_j6528350290008_1_alg».proof.Proof.Gen.Kernel.Frame
import proofs.«170268_j6528350290008_1_alg».proof.Proof.Gen.KernelIdeal
import proofs.«170268_j6528350290008_1_alg».proof.Proof.Gen.KernelIdeal.Skeleton
import proofs.«170268_j6528350290008_1_alg».proof.Proof.Gen.KernelIdeal.Launch
import proofs.«170268_j6528350290008_1_alg».proof.Proof.Gen.KernelIdeal.Points
import proofs.«170268_j6528350290008_1_alg».proof.Proof.Gen.KernelIdeal.Frame
import proofs.«170268_j6528350290008_1_alg».proof.Proof.Gen.ReferenceIdeal
import proofs.«170268_j6528350290008_1_alg».proof.Proof.Gen.Pre_finite_inputs
import proofs.«170268_j6528350290008_1_alg».proof.Proof.KRun
import proofs.«170268_j6528350290008_1_alg».proof.Proof.HostV
import proofs.«170268_j6528350290008_1_alg».proof.Proof.RefRun
import proofs.«170268_j6528350290008_1_alg».proof.Proof.RefRead
import proofs.«170268_j6528350290008_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, both programs end with the result at `kernelOut` of the arguments:
    the kernel's program by its run read through its host stretches, the reference by its run and `value_eq`. -/
theorem algebraic : Cert.algebraic_KernelIdeal_ReferenceIdeal := by
  intro m ρ m' ρ' _ hagree
  refine ⟨fun c => Cert.KernelIdeal.HostV.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostV.out_eq m ρ c), (h c).2⟩)
      (Cert.KernelIdeal.GenV.run_out (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v31_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.value_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
